-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S1024x512 : Shape := ⟨2, ![1024, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S1024x512 .f32) (main_arg15 : FVec F S512 .f32) (main_v63 : IVec S_ 1) (main_v67 : IVec S_ 1) : IVec S_ 1 :=
  let main_v68 : IVec S_ 1 := andi main_v63 main_v67
  let main_v69 : FVec F S1024x512 .f32 := Host.absf main_arg14
  let main_cst_26 : FVec F S_ .f32 := constant S_ .f32 0x7F800000#32
  let main_v70 : FVec F S1024x512 .f32 := broadcastInDim S1024x512 ![] bcast_S_S1024x512 main_cst_26
  let main_v71 : IVec S1024x512 1 := cmpf .olt main_v69 main_v70
  let main_c_27 : IVec S_ 1 := constantI S_ 1 1#1
  let main_v72 : IVec S_ 1 := (fun x v => Host.reduce IntOp.andi x v reducesTo_S1024x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  main_v78

def fn_part3 {F : FTy → Type} [FloatOps F] (main_arg11 : FVec F S512 .f32) (main_arg12 : FVec F S1024x512 .f32) (main_arg13 : FVec F S512 .f32) (main_arg14 : FVec F S1024x512 .f32) (main_arg15 : FVec F S512 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S1024x512 .f32 := Host.absf main_arg12
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_v63 main_v67

def fn_part2 {F : FTy → Type} [FloatOps F] (main_arg7 : FVec F S512 .f32) (main_arg8 : FVec F S1024x512 .f32) (main_arg9 : FVec F S512 .f32) (main_arg10 : FVec F S1024x512 .f32) (main_arg11 : FVec F S512 .f32) (main_arg12 : FVec F S1024x512 .f32) (main_arg13 : FVec F S512 .f32) (main_arg14 : FVec F S1024x512 .f32) (main_arg15 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S1024x512 .f32 := Host.absf main_arg8
  let main_cst_14 : FVec F S_ .f32 := constant S_ .f32 0x7F800000#32
  let main_v40 : FVec F S1024x512 .f32 := broadcastInDim S1024x512 ![] bcast_S_S1024x512 main_cst_14
  let main_v41 : IVec S1024x512 1 := cmpf .olt main_v39 main_v40
  let main_c_15 : IVec S_ 1 := constantI S_ 1 1#1
  let main_v42 : IVec S_ 1 := (fun x v => Host.reduce IntOp.andi x v reducesTo_S1024x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S1024x512 .f32 := Host.absf main_arg10
  let main_cst_18 : FVec F S_ .f32 := constant S_ .f32 0x7F800000#32
  let main_v50 : FVec F S1024x512 .f32 := broadcastInDim S1024x512 ![] bcast_S_S1024x512 main_cst_18
  fn_part3 (F := F) main_arg11 main_arg12 main_arg13 main_arg14 main_arg15 main_v48 main_v49 main_v50

def fn_part1 {F : FTy → Type} [FloatOps F] (main_arg4 : FVec F S1024x512 .f32) (main_arg5 : FVec F S512 .f32) (main_arg6 : FVec F S1024x512 .f32) (main_arg7 : FVec F S512 .f32) (main_arg8 : FVec F S1024x512 .f32) (main_arg9 : FVec F S512 .f32) (main_arg10 : FVec F S1024x512 .f32) (main_arg11 : FVec F S512 .f32) (main_arg12 : FVec F S1024x512 .f32) (main_arg13 : FVec F S512 .f32) (main_arg14 : FVec F S1024x512 .f32) (main_arg15 : FVec F S512 .f32) (main_v13 : IVec S_ 1) (main_v16 : IVec S32768x512 1) : IVec S_ 1 :=
  let main_c_5 : IVec S_ 1 := constantI S_ 1 1#1
  let main_v17 : IVec S_ 1 := (fun x v => Host.reduce IntOp.andi x v reducesTo_S32768x512_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S32768x512 .f32) (main_arg1 : FVec F S32768x512 .f32) (main_arg2 : FVec F S32768x512 .f32) (main_arg3 : FVec F S32768x512 .f32) (main_arg4 : FVec F S1024x512 .f32) (main_arg5 : FVec F S512 .f32) (main_arg6 : FVec F S1024x512 .f32) (main_arg7 : FVec F S512 .f32) (main_arg8 : FVec F S1024x512 .f32) (main_arg9 : FVec F S512 .f32) (main_arg10 : FVec F S1024x512 .f32) (main_arg11 : FVec F S512 .f32) (main_arg12 : FVec F S1024x512 .f32) (main_arg13 : FVec F S512 .f32) (main_arg14 : FVec F S1024x512 .f32) (main_arg15 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S32768x512 .f32 := Host.absf main_arg3
  let main_cst_4 : FVec F S_ .f32 := constant S_ .f32 0x7F800000#32
  let main_v15 : FVec F S32768x512 .f32 := broadcastInDim S32768x512 ![] bcast_S_S32768x512 main_cst_4
  let main_v16 : IVec S32768x512 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S32768x512 : Shape := ⟨2, ![32768, 512]⟩
abbrev S1024x512 : Shape := ⟨2, ![1024, 512]⟩
abbrev S512 : Shape := ⟨1, ![512]⟩
abbrev S1024x2560 : Shape := ⟨2, ![1024, 2560]⟩
abbrev S2560 : Shape := ⟨1, ![2560]⟩
abbrev S1x2560 : Shape := ⟨2, ![1, 2560]⟩
abbrev S1x512 : Shape := ⟨2, ![1, 512]⟩
abbrev S512x512 : Shape := ⟨2, ![512, 512]⟩
abbrev S512x1024 : Shape := ⟨2, ![512, 1024]⟩
abbrev S512x2560 : Shape := ⟨2, ![512, 2560]⟩

abbrev nBuf : Space → Nat
  | .hbm => 25
  | .vmem => 18
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S1024x512, .f32⟩
  | .hbm, ⟨5, _⟩ => ⟨S512, .f32⟩
  | .hbm, ⟨6, _⟩ => ⟨S1024x512, .f32⟩
  | .hbm, ⟨7, _⟩ => ⟨S512, .f32⟩
  | .hbm, ⟨8, _⟩ => ⟨S1024x512, .f32⟩
  | .hbm, ⟨9, _⟩ => ⟨S512, .f32⟩
  | .hbm, ⟨10, _⟩ => ⟨S1024x512, .f32⟩
  | .hbm, ⟨11, _⟩ => ⟨S512, .f32⟩
  | .hbm, ⟨12, _⟩ => ⟨S1024x512, .f32⟩
  | .hbm, ⟨13, _⟩ => ⟨S512, .f32⟩
  | .hbm, ⟨14, _⟩ => ⟨S1024x512, .f32⟩
  | .hbm, ⟨15, _⟩ => ⟨S512, .f32⟩
  | .hbm, ⟨16, _⟩ => ⟨S1024x2560, .f32⟩
  | .hbm, ⟨17, _⟩ => ⟨S1024x2560, .bf16⟩
  | .hbm, ⟨18, _⟩ => ⟨S2560, .f32⟩
  | .hbm, ⟨19, _⟩ => ⟨S1x2560, .f32⟩
  | .hbm, ⟨20, _⟩ => ⟨S1024x512, .bf16⟩
  | .hbm, ⟨21, _⟩ => ⟨S1x512, .f32⟩
  | .hbm, ⟨22, _⟩ => ⟨S32768x512, .f32⟩
  | .hbm, ⟨23, _⟩ => ⟨S32768x512, .f32⟩
  | .hbm, ⟨24, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1024x2560, .bf16⟩
  | .local _ .vmem, ⟨9, _⟩ => ⟨S1x2560, .f32⟩
  | .local _ .vmem, ⟨10, _⟩ => ⟨S1024x512, .bf16⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6_0 : Ref sig .tc := ⟨.hbm, 22, rfl⟩
abbrev main_v6_1 : Ref sig .tc := ⟨.hbm, 23, rfl⟩
abbrev main_v6_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S1024x512_S1024x512_S1024x512_S1024x512_S1024x512_S1024x2560_d1 : Shape.Concatenates [S1024x512, S1024x512, S1024x512, S1024x512, S1024x512] S1024x2560 1
  bitsLt_bf16_f32 : FTy.bits .bf16 < FTy.bits .f32
  concatenates_S512_S512_S512_S512_S512_S2560_d0 : Shape.Concatenates [S512, S512, S512, S512, S512] S2560 0
  shapeCasts_S2560_S1x2560 : S2560.ShapeCasts S1x2560
  shapeCasts_S512_S1x512 : S512.ShapeCasts S1x512
  inb_S512x512_S512x512_0_0 : ∀ a, (![0, 0] : Fin 2 → Nat) a + S512x512.size a ≤ S512x512.size a
  h_S512x512 : 0 < S512x512.numel
  concatenates_S512x512_S512x512_S512x1024_d1 : Shape.Concatenates [S512x512, S512x512] S512x1024 1
  inb_S1024x2560_S1024x2560_0_0 : ∀ a, (![0, 0] : Fin 2 → Nat) a + S1024x2560.size a ≤ S1024x2560.size a
  h_S1024x2560 : 0 < S1024x2560.numel
  shapeCasts_S1024x2560_S1024x2560 : S1024x2560.ShapeCasts S1024x2560
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S512x2560 : S1x2560.Broadcasts S512x2560
  slices_S512x2560_o0_0_S512x512 : S512x2560.Slices ![0, 0] S512x512
  slices_S512x2560_o0_512_S512x512 : S512x2560.Slices ![0, 512] S512x512
  slices_S512x2560_o0_1024_S512x512 : S512x2560.Slices ![0, 1024] S512x512
  slices_S512x2560_o0_1536_S512x512 : S512x2560.Slices ![0, 1536] S512x512
  slices_S512x2560_o0_2048_S512x512 : S512x2560.Slices ![0, 2048] S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x1024_S1024x2560_S512x2560_1_0_0_1_n_n_wf : DotDims.WF S512x1024 S1024x2560 S512x2560 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S32768x512.size a
  hwx0_2 : ∀ i : grid0.Coords, EltTy.bits .f32 = 32 ∨ (Rect.block (s := S32768x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S32768x512.size a
  hwx0_3 : ∀ i : grid0.Coords, EltTy.bits .f32 = 32 ∨ (Rect.block (s := S32768x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2560.size a ≤ S1024x2560.size a
  hwx0_4 : ∀ i : grid0.Coords, EltTy.bits .bf16 = 32 ∨ (Rect.block (s := S1024x2560) S1024x2560.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2560.size a ≤ S1x2560.size a
  hwx0_5 : ∀ i : grid0.Coords, EltTy.bits .f32 = 32 ∨ (Rect.block (s := S1x2560) S1x2560.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S32768x512.size a
  hwx0_8 : ∀ i : grid0.Coords, EltTy.bits .f32 = 32 ∨ (Rect.block (s := S32768x512) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S32768x512.size a
  hwx0_9 : ∀ i : grid0.Coords, EltTy.bits .f32 = 32 ∨ (Rect.block (s := S32768x512) S512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S32768x512.size a
  hwx0_10 : ∀ i : grid0.Coords, EltTy.bits .f32 = 32 ∨ (Rect.block (s := S32768x512) S512x512.size (cc0_transform_10 i) (hinb0_10 i)).WholeWords (EltTy.packing .f32)

variable [Facts₀]

def dot_S512x1024_S1024x2560_S512x2560_1_0_0_1_n_n : DotDims S512x1024 S1024x2560 S512x2560 where
  lhsContracting := [1]
  rhsContracting := [0]
  lhsNonContracting := [0]
  rhsNonContracting := [1]
  lhsBatch := []
  rhsBatch := []
  wf := dot_S512x1024_S1024x2560_S512x2560_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x2560.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x2560.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S512x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_2) S512x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32768x512 : Shape := ⟨2, ![32768, 512]⟩
abbrev S1024x512 : Shape := ⟨2, ![1024, 512]⟩
abbrev S512 : Shape := ⟨1, ![512]⟩
abbrev S32768x1024 : Shape := ⟨2, ![32768, 1024]⟩
abbrev S1024x2560 : Shape := ⟨2, ![1024, 2560]⟩
abbrev S2560 : Shape := ⟨1, ![2560]⟩
abbrev S32768x2560 : Shape := ⟨2, ![32768, 2560]⟩
abbrev S1x2560 : Shape := ⟨2, ![1, 2560]⟩
abbrev S_ : Shape := ⟨0, ![]⟩
abbrev S1x512 : Shape := ⟨2, ![1, 512]⟩

abbrev nBuf : Space → Nat
  | .hbm => 67
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S1024x512, .f32⟩
  | .hbm, ⟨5, _⟩ => ⟨S512, .f32⟩
  | .hbm, ⟨6, _⟩ => ⟨S1024x512, .f32⟩
  | .hbm, ⟨7, _⟩ => ⟨S512, .f32⟩
  | .hbm, ⟨8, _⟩ => ⟨S1024x512, .f32⟩
  | .hbm, ⟨9, _⟩ => ⟨S512, .f32⟩
  | .hbm, ⟨10, _⟩ => ⟨S1024x512, .f32⟩
  | .hbm, ⟨11, _⟩ => ⟨S512, .f32⟩
  | .hbm, ⟨12, _⟩ => ⟨S1024x512, .f32⟩
  | .hbm, ⟨13, _⟩ => ⟨S512, .f32⟩
  | .hbm, ⟨14, _⟩ => ⟨S1024x512, .f32⟩
  | .hbm, ⟨15, _⟩ => ⟨S512, .f32⟩
  | .hbm, ⟨16, _⟩ => ⟨S32768x1024, .f32⟩
  | .hbm, ⟨17, _⟩ => ⟨S1024x2560, .f32⟩
  | .hbm, ⟨18, _⟩ => ⟨S2560, .f32⟩
  | .hbm, ⟨19, _⟩ => ⟨S32768x2560, .f32⟩
  | .hbm, ⟨20, _⟩ => ⟨S1x2560, .f32⟩
  | .hbm, ⟨21, _⟩ => ⟨S32768x2560, .f32⟩
  | .hbm, ⟨22, _⟩ => ⟨S32768x2560, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S_, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S_, .f32⟩
  | .hbm, ⟨39, _⟩ => ⟨S32768x512, .f32⟩
  | .hbm, ⟨40, _⟩ => ⟨S32768x512, .f32⟩
  | .hbm, ⟨41, _⟩ => ⟨S_, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S_, .f32⟩
  | .hbm, ⟨47, _⟩ => ⟨S32768x512, .f32⟩
  | .hbm, ⟨48, _⟩ => ⟨S32768x512, .f32⟩
  | .hbm, ⟨49, _⟩ => ⟨S_, .f32⟩
  | .hbm, ⟨50, _⟩ => ⟨S32768x512, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S32768x512, .f32⟩
  | .hbm, ⟨56, _⟩ => ⟨S32768x512, .f32⟩
  | .hbm, ⟨57, _⟩ => ⟨S32768x512, .f32⟩
  | .hbm, ⟨58, _⟩ => ⟨S32768x512, .f32⟩
  | .hbm, ⟨59, _⟩ => ⟨S32768x512, .f32⟩
  | .hbm, ⟨60, _⟩ => ⟨S32768x1024, .f32⟩
  | .hbm, ⟨61, _⟩ => ⟨S32768x512, .f32⟩
  | .hbm, ⟨62, _⟩ => ⟨S1x512, .f32⟩
  | .hbm, ⟨63, _⟩ => ⟨S32768x512, .f32⟩
  | .hbm, ⟨64, _⟩ => ⟨S32768x512, .f32⟩
  | .hbm, ⟨65, _⟩ => ⟨S32768x512, .f32⟩
  | .hbm, ⟨66, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  concatenates_S32768x512_S32768x512_S32768x1024_d1 : Shape.Concatenates [S32768x512, S32768x512] S32768x1024 1
  concatenates_S1024x512_S1024x512_S1024x512_S1024x512_S1024x512_S1024x2560_d1 : Shape.Concatenates [S1024x512, S1024x512, S1024x512, S1024x512, S1024x512] S1024x2560 1
  concatenates_S512_S512_S512_S512_S512_S2560_d0 : Shape.Concatenates [S512, S512, S512, S512, S512] S2560 0
  bcast_S2560_S1x2560_1 : S2560.BroadcastsInDim S1x2560 (![1] : Fin 1 → Fin S1x2560.rank)
  bcast_S1x2560_S32768x2560_0_1 : S1x2560.BroadcastsInDim S32768x2560 (![0, 1] : Fin 2 → Fin S32768x2560.rank)
  slices_S32768x2560_S32768x512_0_0 : S32768x2560.Slices ![0, 0] S32768x512
  slices_S32768x2560_S32768x512_0_512 : S32768x2560.Slices ![0, 512] S32768x512
  slices_S32768x2560_S32768x512_0_1024 : S32768x2560.Slices ![0, 1024] S32768x512
  slices_S32768x2560_S32768x512_0_1536 : S32768x2560.Slices ![0, 1536] S32768x512
  slices_S32768x2560_S32768x512_0_2048 : S32768x2560.Slices ![0, 2048] S32768x512
  bcast_S_S32768x512 : S_.BroadcastsInDim S32768x512 (![] : Fin 0 → Fin S32768x512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  dot_S32768x1024_S1024x2560_S32768x2560_1_0_0_1_n_n_wf : DotDims.WF S32768x1024 S1024x2560 S32768x2560 [1] [0] [0] [1] [] []
  dot_S32768x1024_S1024x512_S32768x512_1_0_0_1_n_n_wf : DotDims.WF S32768x1024 S1024x512 S32768x512 [1] [0] [0] [1] [] []

variable [Facts₀]

def dot_S32768x1024_S1024x2560_S32768x2560_1_0_0_1_n_n : DotDims S32768x1024 S1024x2560 S32768x2560 where
  lhsContracting := [1]
  rhsContracting := [0]
  lhsNonContracting := [0]
  rhsNonContracting := [1]
  lhsBatch := []
  rhsBatch := []
  wf := dot_S32768x1024_S1024x2560_S32768x2560_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf

class Facts : Prop extends Facts₀ where

variable [Facts]
-- ==== Proof.KFrame.lean ====
/-
  The frame of the cell's program: it runs to the end, nothing faults, and its sixteen argument arrays end as they
  began.  @main first joins the five gate weight matrices and the five gate biases and changes the format of the
  weights (six host operations that write fresh buffers only), then walks the batch in 64 blocks of 512 rows.  At a
  block the body reads the four batch blocks and the four resident weight and bias blocks whole, and overwrites the
  three result blocks whole: so after the body every input staging buffer still holds its block, and every result
  staging buffer holds the body's stored value as a function of the input blocks.  The stored values are kept as
  named terms of the input blocks (`outH`, `outc`, `outC`), which is what the value proof reads afterwards.
-/
import proofs.«117177_j1967095022176_1_alg».proof.Proof.Gen.Kernel.Launch
import proofs.«117177_j1967095022176_1_alg».proof.Proof.Gen.Kernel.Skeleton
import proofs.«117177_j1967095022176_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the blocks' walk -/

/-- The buffers as the walk finds them: the launch contents after the six host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the walk. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the walk finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 1: the walk finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 2: the walk finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 3: the walk finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 4: the walk finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 5: the walk finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 6: the walk finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 7: the walk finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 8: the walk finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 9: the walk finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 10: the walk finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 11: the walk finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 12: the walk finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 13: the walk finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 14: the walk finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 15: the walk finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## A window's block at a point -/

/-- Window `w`'s block at point `t`, read off its array as the walk finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data over these arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data over these arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its block index has not moved), for any proof data over these arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its block index has not moved), for any proof data over these arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its block index has not moved), for any proof data over these arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is not
    fetched its block index has not moved), for any proof data over these arrays whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (where it is not
    fetched its block index has not moved), for any proof data over these arrays whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame from a run over proof data -/

/-- In a final state that has every array of the walk at what the proof data say, and every other buffer as the walk
    found it, the sixteen arguments are as launched: a staged input is never written back, and no host operation
    wrote an argument. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩

/-- So a run to such final states is the frame. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => kept_of_post m dats hA r h c) h

/-! ## The body's accesses: every block whole -/

abbrev rB : Rect S512x512 := Rect.unit (s := S512x512) ![0, 0] S512x512.size inb_S512x512_S512x512_0_0
abbrev rW : Rect S1024x2560 := Rect.unit (s := S1024x2560) ![0, 0] S1024x2560.size inb_S1024x2560_S1024x2560_0_0
abbrev rb : Rect S1x2560 := Rect.unit (s := S1x2560) ![0, 0] S1x2560.size inb_S1x2560_S1x2560_0_0
abbrev rM : Rect S1024x512 := Rect.unit (s := S1024x512) ![0, 0] S1024x512.size inb_S1024x512_S1024x512_0_0
abbrev rm : Rect S1x512 := Rect.unit (s := S1x512) ![0, 0] S1x512.size inb_S1x512_S1x512_0_0

/-! ## What the body leaves in each result block -/

/-- The new hidden block, from the eight input blocks. -/
def outH (x0 x1 x2 x3 : Vec F S512x512 .f32) (x4 : Vec F S1024x2560 .bf16) (x5 : Vec F S1x2560 .f32) (x6 : Vec F S1024x512 .bf16) (x7 : Vec F S1x512 .f32) : Vec F S512x512 .f32 :=
  View.canon [⟨rB, k0_pay6 (View.ld x0 rB) (View.ld x1 rB) (View.ld x2 rB) (View.ld x3 rB) (View.ld x4 rW) (View.ld x5 rb) (View.ld x6 rM) (View.ld x7 rm)⟩]
/-- The first memory's new block. -/
def outc (x0 x1 x2 : Vec F S512x512 .f32) (x4 : Vec F S1024x2560 .bf16) (x5 : Vec F S1x2560 .f32) : Vec F S512x512 .f32 :=
  View.canon [⟨rB, k0_pay4 (View.ld x0 rB) (View.ld x1 rB) (View.ld x2 rB) (View.ld x4 rW) (View.ld x5 rb)⟩]
/-- The second memory's new block. -/
def outC (x0 x1 x3 : Vec F S512x512 .f32) (x4 : Vec F S1024x2560 .bf16) (x5 : Vec F S1x2560 .f32) : Vec F S512x512 .f32 :=
  View.canon [⟨rB, k0_pay5 (View.ld x0 rB) (View.ld x1 rB) (View.ld x3 rB) (View.ld x4 rW) (View.ld x5 rb)⟩]

/-- One whole-block store covers the block. -/
theorem coverB (p0 : Vec F S512x512 .f32) (y : S512x512.Idx) :
    ∃ pc ∈ ([⟨rB, p0⟩] : List (View.Piece (Elt F) S512x512 .f32)), y ∈ pc.1.set :=
  View.cover_of_tiled [⟨rB, p0⟩] S512x512.size (by rfl) y

/-! ## The body's triple -/

set_option maxHeartbeats 4000000 in
/-- The body on whole staging buffers, the inputs' at contents `xW` and the results' at anything, runs to the end
    holding the inputs' as they were and the results' at `outH`, `outc`, `outC` of the inputs'. -/
theorem sound_kernel (c : Dev nD) (E : Set ℕ) (i : grid0.Coords) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S1024x2560 .bf16) (h4 : a4.IsWhole) (a5 : Memref sig .tc .vmem S1x2560 .f32) (h5 : a5.IsWhole) (a6 : Memref sig .tc .vmem S1024x512 .bf16) (h6 : a6.IsWhole) (a7 : Memref sig .tc .vmem S1x512 .f32) (h7 : a7.IsWhole) (a8 : Memref sig .tc .vmem S512x512 .f32) (h8 : a8.IsWhole) (a9 : Memref sig .tc .vmem S512x512 .f32) (h9 : a9.IsWhole) (a10 : Memref sig .tc .vmem S512x512 .f32) (h10 : a10.IsWhole)
    (x0 x1 x2 x3 : Vec F S512x512 .f32) (x4 : Vec F S1024x2560 .bf16) (x5 : Vec F S1x2560 .f32) (x6 : Vec F S1024x512 .bf16) (x7 : Vec F S1x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (outH x0 x1 x2 x3 x4 x5 x6 x7) ∗ owns (c : Thread nD τ) a9 fullShare (outc x0 x1 x2 x4 x5) ∗ owns (c : Thread nD τ) a10 fullShare (outC x0 x1 x3 x4 x5)) -∗ K ⟨⟩))
      ⊢ wp frame (wpE (defs₀ (F := F)) Variants.none c none) E (cc0__mslstm_kernel i a0 h0 a1 h1 a2 h2 a3 h3 a4 h4 a5 h5 a6 h6 a7 h7 a8 h8 a9 h9 a10 h10) K := by
  simp only [cc0__mslstm_kernel_eq_skeleton]; unfold cc0__mslstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverB _)
  isplitl [H9]
  · iexists _; isplitr
    swap; · iexact H9
    ipureintro
    try dsimp only
    exact View.read_writes_eq_canon _ _ _ (coverB _)
  iexists _; isplitr
  swap; · iexact H10
  ipureintro
  try dsimp only
  exact View.read_writes_eq_canon _ _ _ (coverB _)

/-! ## The walk's proof data -/

/-- On core `c`: the arrays as the walk finds them; after the body at point `t` each input buffer at its block and each
    result buffer at the stored value of the input blocks; nothing else kept, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outH (iblk m c 0 t) (iblk m c 1 t) (iblk m c 2 t) (iblk m c 3 t) (iblk m c 4 t) (iblk m c 5 t) (iblk m c 6 t) (iblk m c 7 t)
    | ⟨9, _⟩ => outc (iblk m c 0 t) (iblk m c 1 t) (iblk m c 2 t) (iblk m c 4 t) (iblk m c 5 t)
    | ⟨10, _⟩ => outC (iblk m c 0 t) (iblk m c 1 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outH (iblk m c 0 t) (iblk m c 1 t) (iblk m c 2 t) (iblk m c 3 t) (iblk m c 4 t) (iblk m c 5 t) (iblk m c 6 t) (iblk m c 7 t) := by dsimp only [dats]
theorem after9 (c : Dev nD) (t : Fin cfg0.N) : (dats m 0 c).after 9 t = outc (iblk m c 0 t) (iblk m c 1 t) (iblk m c 2 t) (iblk m c 4 t) (iblk m c 5 t) := by dsimp only [dats]
theorem after10 (c : Dev nD) (t : Fin cfg0.N) : (dats m 0 c).after 10 t = outC (iblk m c 0 t) (iblk m c 1 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the input buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main ends, with every array of the walk at what
    the proof data say and every other buffer as the walk found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

end Cert.Kernel.Hand

end
-- ==== Proof.KIFrame.lean ====
/-
  The frame of the cell's program: it runs to the end, nothing faults, and its sixteen argument arrays end as they
  began.  @main first joins the five gate weight matrices and the five gate biases and changes the format of the
  weights (six host operations that write fresh buffers only), then walks the batch in 64 blocks of 512 rows.  At a
  block the body reads the four batch blocks and the four resident weight and bias blocks whole, and overwrites the
  three result blocks whole: so after the body every input staging buffer still holds its block, and every result
  staging buffer holds the body's stored value as a function of the input blocks.  The stored values are kept as
  named terms of the input blocks (`outH`, `outc`, `outC`), which is what the value proof reads afterwards.
-/
import proofs.«117177_j1967095022176_1_alg».proof.Proof.Gen.KernelIdeal.Launch
import proofs.«117177_j1967095022176_1_alg».proof.Proof.Gen.KernelIdeal.Skeleton
import proofs.«117177_j1967095022176_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the blocks' walk -/

/-- The buffers as the walk finds them: the launch contents after the six host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the walk. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the walk finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 1: the walk finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 2: the walk finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 3: the walk finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 4: the walk finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 5: the walk finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 6: the walk finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 7: the walk finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 8: the walk finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 9: the walk finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 10: the walk finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 11: the walk finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 12: the walk finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 13: the walk finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 14: the walk finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation writes argument 15: the walk finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## A window's block at a point -/

/-- Window `w`'s block at point `t`, read off its array as the walk finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data over these arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data over these arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its block index has not moved), for any proof data over these arrays whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its block index has not moved), for any proof data over these arrays whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its block index has not moved), for any proof data over these arrays whose body leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is not
    fetched its block index has not moved), for any proof data over these arrays whose body leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (where it is not
    fetched its block index has not moved), for any proof data over these arrays whose body leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame from a run over proof data -/

/-- In a final state that has every array of the walk at what the proof data say, and every other buffer as the walk
    found it, the sixteen arguments are as launched: a staged input is never written back, and no host operation
    wrote an argument. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩

/-- So a run to such final states is the frame. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => kept_of_post m dats hA r h c) h

/-! ## The body's accesses: every block whole -/

abbrev rB : Rect S512x512 := Rect.unit (s := S512x512) ![0, 0] S512x512.size inb_S512x512_S512x512_0_0
abbrev rW : Rect S1024x2560 := Rect.unit (s := S1024x2560) ![0, 0] S1024x2560.size inb_S1024x2560_S1024x2560_0_0
abbrev rb : Rect S1x2560 := Rect.unit (s := S1x2560) ![0, 0] S1x2560.size inb_S1x2560_S1x2560_0_0
abbrev rM : Rect S1024x512 := Rect.unit (s := S1024x512) ![0, 0] S1024x512.size inb_S1024x512_S1024x512_0_0
abbrev rm : Rect S1x512 := Rect.unit (s := S1x512) ![0, 0] S1x512.size inb_S1x512_S1x512_0_0

/-! ## What the body leaves in each result block -/

/-- The new hidden block, from the eight input blocks. -/
def outH (x0 x1 x2 x3 : Vec F S512x512 .f32) (x4 : Vec F S1024x2560 .bf16) (x5 : Vec F S1x2560 .f32) (x6 : Vec F S1024x512 .bf16) (x7 : Vec F S1x512 .f32) : Vec F S512x512 .f32 :=
  View.canon [⟨rB, k0_pay6 (View.ld x0 rB) (View.ld x1 rB) (View.ld x2 rB) (View.ld x3 rB) (View.ld x4 rW) (View.ld x5 rb) (View.ld x6 rM) (View.ld x7 rm)⟩]
/-- The first memory's new block. -/
def outc (x0 x1 x2 : Vec F S512x512 .f32) (x4 : Vec F S1024x2560 .bf16) (x5 : Vec F S1x2560 .f32) : Vec F S512x512 .f32 :=
  View.canon [⟨rB, k0_pay4 (View.ld x0 rB) (View.ld x1 rB) (View.ld x2 rB) (View.ld x4 rW) (View.ld x5 rb)⟩]
/-- The second memory's new block. -/
def outC (x0 x1 x3 : Vec F S512x512 .f32) (x4 : Vec F S1024x2560 .bf16) (x5 : Vec F S1x2560 .f32) : Vec F S512x512 .f32 :=
  View.canon [⟨rB, k0_pay5 (View.ld x0 rB) (View.ld x1 rB) (View.ld x3 rB) (View.ld x4 rW) (View.ld x5 rb)⟩]

/-- One whole-block store covers the block. -/
theorem coverB (p0 : Vec F S512x512 .f32) (y : S512x512.Idx) :
    ∃ pc ∈ ([⟨rB, p0⟩] : List (View.Piece (Elt F) S512x512 .f32)), y ∈ pc.1.set :=
  View.cover_of_tiled [⟨rB, p0⟩] S512x512.size (by rfl) y

/-! ## The body's triple -/

set_option maxHeartbeats 4000000 in
/-- The body on whole staging buffers, the inputs' at contents `xW` and the results' at anything, runs to the end
    holding the inputs' as they were and the results' at `outH`, `outc`, `outC` of the inputs'. -/
theorem sound_kernel (c : Dev nD) (E : Set ℕ) (i : grid0.Coords) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S1024x2560 .bf16) (h4 : a4.IsWhole) (a5 : Memref sig .tc .vmem S1x2560 .f32) (h5 : a5.IsWhole) (a6 : Memref sig .tc .vmem S1024x512 .bf16) (h6 : a6.IsWhole) (a7 : Memref sig .tc .vmem S1x512 .f32) (h7 : a7.IsWhole) (a8 : Memref sig .tc .vmem S512x512 .f32) (h8 : a8.IsWhole) (a9 : Memref sig .tc .vmem S512x512 .f32) (h9 : a9.IsWhole) (a10 : Memref sig .tc .vmem S512x512 .f32) (h10 : a10.IsWhole)
    (x0 x1 x2 x3 : Vec F S512x512 .f32) (x4 : Vec F S1024x2560 .bf16) (x5 : Vec F S1x2560 .f32) (x6 : Vec F S1024x512 .bf16) (x7 : Vec F S1x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (outH x0 x1 x2 x3 x4 x5 x6 x7) ∗ owns (c : Thread nD τ) a9 fullShare (outc x0 x1 x2 x4 x5) ∗ owns (c : Thread nD τ) a10 fullShare (outC x0 x1 x3 x4 x5)) -∗ K ⟨⟩))
      ⊢ wp frame (wpE (defs₀ (F := F)) Variants.none c none) E (cc0__mslstm_kernel i a0 h0 a1 h1 a2 h2 a3 h3 a4 h4 a5 h5 a6 h6 a7 h7 a8 h8 a9 h9 a10 h10) K := by
  simp only [cc0__mslstm_kernel_eq_skeleton]; unfold cc0__mslstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverB _)
  isplitl [H9]
  · iexists _; isplitr
    swap; · iexact H9
    ipureintro
    try dsimp only
    exact View.read_writes_eq_canon _ _ _ (coverB _)
  iexists _; isplitr
  swap; · iexact H10
  ipureintro
  try dsimp only
  exact View.read_writes_eq_canon _ _ _ (coverB _)

/-! ## The walk's proof data -/

/-- On core `c`: the arrays as the walk finds them; after the body at point `t` each input buffer at its block and each
    result buffer at the stored value of the input blocks; nothing else kept, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outH (iblk m c 0 t) (iblk m c 1 t) (iblk m c 2 t) (iblk m c 3 t) (iblk m c 4 t) (iblk m c 5 t) (iblk m c 6 t) (iblk m c 7 t)
    | ⟨9, _⟩ => outc (iblk m c 0 t) (iblk m c 1 t) (iblk m c 2 t) (iblk m c 4 t) (iblk m c 5 t)
    | ⟨10, _⟩ => outC (iblk m c 0 t) (iblk m c 1 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outH (iblk m c 0 t) (iblk m c 1 t) (iblk m c 2 t) (iblk m c 3 t) (iblk m c 4 t) (iblk m c 5 t) (iblk m c 6 t) (iblk m c 7 t) := by dsimp only [dats]
theorem after9 (c : Dev nD) (t : Fin cfg0.N) : (dats m 0 c).after 9 t = outc (iblk m c 0 t) (iblk m c 1 t) (iblk m c 2 t) (iblk m c 4 t) (iblk m c 5 t) := by dsimp only [dats]
theorem after10 (c : Dev nD) (t : Fin cfg0.N) : (dats m 0 c).after 10 t = outC (iblk m c 0 t) (iblk m c 1 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the input buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main ends, with every array of the walk at what
    the proof data say and every other buffer as the walk found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

end Cert.KernelIdeal.Hand

end
-- ==== Proof.Spec.lean ====
/-
  The cell as mathematics, one batch row at a time, on the extended reals.

  A batch row has four vectors of length 512: the input `x`, the hidden state `h` and the two memories `c` and `C`.
  With `xh` the row `x` followed by the row `h` (length 1024), a weight matrix `W` of 1024 × 2560 and a bias `b` of
  length 2560, the pre-activations are `z j = (∑ k, xh k · W k j) + b j`.  Its five consecutive stretches of 512
  columns are the input gate, the forget gate, the output gate and the two candidates:

      newc q = σ(z (512 + q)) · c q + σ(z q) · tanh (z (1536 + q))
      newC q = σ(z (512 + q)) · C q + σ(z q) · tanh (z (2048 + q))
      newh q = σ(z (1024 + q)) · tanh ((∑ k, cc k · Wm k q) + bm q),   cc = newc followed by newC,

  with `σ z = 1 / (1 + e^(-z))`.  Every row of the three results depends on the same row of the four inputs only,
  which is why a kernel that walks the batch in blocks of rows and a reference that takes the batch whole agree.
-/
import Idealize.ShloMosaic.PureOps.Ideal

noncomputable section

namespace Cert.Cell

open Idealize.ShloMosaic

/-- Two rows of length 512 laid end to end. -/
def catRow (a b : Fin 512 → EReal) (k : Fin 1024) : EReal :=
  if hk : k.val < 512 then a ⟨k.val, hk⟩ else b ⟨k.val - 512, by have := k.isLt; omega⟩

/-- The pre-activation `z j` of one batch row. -/
def gate (xr hr : Fin 512 → EReal) (W : Fin 1024 → Fin 2560 → EReal) (b : Fin 2560 → EReal) (j : Fin 2560) : EReal :=
  (∑ k : Fin 1024, catRow xr hr k * W k j) + b j

/-- Column `q` of the stretch that starts at column `o`. -/
def col (o : Nat) (ho : o + 512 ≤ 2560) (q : Fin 512) : Fin 2560 := ⟨o + q.val, by have := q.isLt; omega⟩

/-- The first memory's new row. -/
def newc (xr hr cr : Fin 512 → EReal) (W : Fin 1024 → Fin 2560 → EReal) (b : Fin 2560 → EReal) (q : Fin 512) : EReal :=
  Ideal.logistic (gate xr hr W b (col 512 (by norm_num) q)) * cr q
    + Ideal.logistic (gate xr hr W b (col 0 (by norm_num) q)) * Ideal.tanh (gate xr hr W b (col 1536 (by norm_num) q))

/-- The second memory's new row. -/
def newC (xr hr Cr : Fin 512 → EReal) (W : Fin 1024 → Fin 2560 → EReal) (b : Fin 2560 → EReal) (q : Fin 512) : EReal :=
  Ideal.logistic (gate xr hr W b (col 512 (by norm_num) q)) * Cr q
    + Ideal.logistic (gate xr hr W b (col 0 (by norm_num) q)) * Ideal.tanh (gate xr hr W b (col 2048 (by norm_num) q))

/-- The new hidden row. -/
def newh (xr hr cr Cr : Fin 512 → EReal) (W : Fin 1024 → Fin 2560 → EReal) (b : Fin 2560 → EReal)
    (Wm : Fin 1024 → Fin 512 → EReal) (bm : Fin 512 → EReal) (q : Fin 512) : EReal :=
  Ideal.logistic (gate xr hr W b (col 1024 (by norm_num) q))
    * Ideal.tanh ((∑ k : Fin 1024, catRow (newc xr hr cr W b) (newC xr hr Cr W b) k * Wm k q) + bm q)

end Cert.Cell

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.KPay.lean ====
/-
  The kernel body's three stored values, read at an entry (p, q) of the 512 × 512 block: each is the cell's row
  function (Spec.lean) of row p of the loaded blocks.  The body concatenates the x and h blocks along the columns,
  multiplies by the 1024 × 2560 weight block into a zero accumulator, adds the bias row, cuts five 512-column
  stretches, and applies the gates; format changes are the identity on the extended reals and a matrix product
  into zeros is the plain sum over the contracted axis.
-/
import proofs.«117177_j1967095022176_1_alg».proof.Proof.Gen.KernelIdeal.Skeleton
import proofs.«117177_j1967095022176_1_alg».proof.Proof.Spec
import proofs.«117177_j1967095022176_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.Cell

/-! ## The pointwise gates at an index, on the extended reals -/

/-- The logistic of a block at an index is the logistic of the entry. -/
theorem logistic_apply {s : Shape} {φ : FTy} (a : FVec Ideal s φ) (i : s.Idx) :
    logistic a i = Ideal.logistic (a i) := rfl

/-- The hyperbolic tangent of a block at an index is that of the entry. -/
theorem tanh_apply {s : Shape} {φ : FTy} (a : FVec Ideal s φ) (i : s.Idx) :
    tanh a i = Ideal.tanh (a i) := rfl

/-! ## The joined row -/

/-- The two blocks laid side by side along the columns, read at (p, k): row p of the first followed by row p of the
    second. -/
theorem cat_apply (a b : Vec Ideal S512x512 .f32) (h : Shape.Concatenates [S512x512, S512x512] S512x1024 1)
    (p : Fin 512) (k : Fin 1024) :
    concatenate S512x1024 1 [⟨S512x512, a⟩, ⟨S512x512, b⟩] h (ix2 p k)
      = catRow (fun k => a (ix2 p k)) (fun k => b (ix2 p k)) k := by
  unfold catRow
  by_cases hk : k.val < 512
  · rw [dif_pos hk]
    exact concatenate_pair_apply_left 1 a b h (ix2 p k) rfl (ix2 p ⟨k.val, hk⟩)
      (fun ax => by match ax with | ⟨0, _⟩ => rfl | ⟨1, _⟩ => rfl)
  · rw [dif_neg hk]
    exact concatenate_pair_apply_right 1 a b h (ix2 p k) rfl rfl (ix2 p ⟨k.val - 512, by have := k.isLt; omega⟩)
      (fun ax hax => by match ax with | ⟨0, _⟩ => rfl | ⟨1, _⟩ => exact absurd rfl hax)
      (by show k.val - 512 + 512 = k.val; omega)

/-! ## The pre-activations -/

/-- The pre-activations at (p, j): the joined row p against column j of the weights, plus the bias entry j. -/
theorem pay1_apply (v0 v1 : Vec Ideal S512x512 .f32) (v6 : Vec Ideal S1024x2560 .bf16) (v9 : Vec Ideal S1x2560 .f32)
    (p : Fin 512) (j : Fin 2560) :
    k0_pay1 (F := Ideal) v0 v1 v6 v9 (ix2 p j)
      = gate (fun k => v0 (ix2 p k)) (fun k => v1 (ix2 p k)) (fun k j => v6 (ix2 k j)) (fun j => v9 (ix2 0 j)) j := by
  unfold k0_pay1 gate
  dsimp only
  rw [addf_apply, shapeCast_self, shapeCast_self, broadcastTo_1b_ab_apply]
  simp only [matmul]
  rw [PlainDot.matmul_zero_apply ⟨rfl, rfl, rfl, rfl, rfl, rfl⟩]
  congr 1
  refine Finset.sum_congr rfl fun k _ => ?_
  rw [truncf_apply, cat_apply]

/-- The stretch of 512 columns of the pre-activations that starts at column o, read at (p, q): the pre-activation
    at column o + q. -/
theorem gate_slice (o : Nat) (ho : o + 512 ≤ 2560) (v0 v1 : Vec Ideal S512x512 .f32) (v6 : Vec Ideal S1024x2560 .bf16)
    (v9 : Vec Ideal S1x2560 .f32) (h : S512x2560.Slices ![0, o] S512x512) (p q : Fin 512) :
    extractStridedSlice S512x512 ![0, o] (k0_pay1 (F := Ideal) v0 v1 v6 v9) h (ix2 p q)
      = gate (fun k => v0 (ix2 p k)) (fun k => v1 (ix2 p k)) (fun k j => v6 (ix2 k j)) (fun j => v9 (ix2 0 j))
          (col o ho q) :=
  (slice2_axis1_apply o _ h p q (col o ho q) rfl).trans (pay1_apply v0 v1 v6 v9 p (col o ho q))

/-! ## The two gates shared by both memories -/

/-- The input gate at (p, q). -/
theorem pay2_apply (v0 v1 : Vec Ideal S512x512 .f32) (v6 : Vec Ideal S1024x2560 .bf16) (v9 : Vec Ideal S1x2560 .f32)
    (p q : Fin 512) :
    k0_pay2 (F := Ideal) v0 v1 v6 v9 (ix2 p q)
      = Ideal.logistic (gate (fun k => v0 (ix2 p k)) (fun k => v1 (ix2 p k)) (fun k j => v6 (ix2 k j))
          (fun j => v9 (ix2 0 j)) (col 0 (by norm_num) q)) := by
  unfold k0_pay2
  rw [logistic_apply, gate_slice 0 (by norm_num)]

/-- The forget gate at (p, q). -/
theorem pay3_apply (v0 v1 : Vec Ideal S512x512 .f32) (v6 : Vec Ideal S1024x2560 .bf16) (v9 : Vec Ideal S1x2560 .f32)
    (p q : Fin 512) :
    k0_pay3 (F := Ideal) v0 v1 v6 v9 (ix2 p q)
      = Ideal.logistic (gate (fun k => v0 (ix2 p k)) (fun k => v1 (ix2 p k)) (fun k j => v6 (ix2 k j))
          (fun j => v9 (ix2 0 j)) (col 512 (by norm_num) q)) := by
  unfold k0_pay3
  rw [logistic_apply, gate_slice 512 (by norm_num)]

/-! ## The three stored blocks -/

/-- The first memory's stored block at (p, q). -/
theorem pay4_apply (v0 v1 v2 : Vec Ideal S512x512 .f32) (v6 : Vec Ideal S1024x2560 .bf16) (v9 : Vec Ideal S1x2560 .f32)
    (p q : Fin 512) :
    k0_pay4 (F := Ideal) v0 v1 v2 v6 v9 (ix2 p q)
      = newc (fun k => v0 (ix2 p k)) (fun k => v1 (ix2 p k)) (fun k => v2 (ix2 p k))
          (fun k j => v6 (ix2 k j)) (fun j => v9 (ix2 0 j)) q := by
  unfold k0_pay4 newc
  dsimp only
  rw [addf_apply, mulf_apply, mulf_apply, tanh_apply, pay3_apply, pay2_apply, gate_slice 1536 (by norm_num)]

/-- The second memory's stored block at (p, q). -/
theorem pay5_apply (v0 v1 v3 : Vec Ideal S512x512 .f32) (v6 : Vec Ideal S1024x2560 .bf16) (v9 : Vec Ideal S1x2560 .f32)
    (p q : Fin 512) :
    k0_pay5 (F := Ideal) v0 v1 v3 v6 v9 (ix2 p q)
      = newC (fun k => v0 (ix2 p k)) (fun k => v1 (ix2 p k)) (fun k => v3 (ix2 p k))
          (fun k j => v6 (ix2 k j)) (fun j => v9 (ix2 0 j)) q := by
  unfold k0_pay5 newC
  dsimp only
  rw [addf_apply, mulf_apply, mulf_apply, tanh_apply, pay3_apply, pay2_apply, gate_slice 2048 (by norm_num)]

/-- The hidden state's stored block at (p, q). -/
theorem pay6_apply (v0 v1 v2 v3 : Vec Ideal S512x512 .f32) (v6 : Vec Ideal S1024x2560 .bf16) (v9 : Vec Ideal S1x2560 .f32)
    (v31 : Vec Ideal S1024x512 .bf16) (v34 : Vec Ideal S1x512 .f32) (p q : Fin 512) :
    k0_pay6 (F := Ideal) v0 v1 v2 v3 v6 v9 v31 v34 (ix2 p q)
      = newh (fun k => v0 (ix2 p k)) (fun k => v1 (ix2 p k)) (fun k => v2 (ix2 p k)) (fun k => v3 (ix2 p k))
          (fun k j => v6 (ix2 k j)) (fun j => v9 (ix2 0 j)) (fun k j => v31 (ix2 k j)) (fun j => v34 (ix2 0 j)) q := by
  -- row p of the two new memories, as the specification's row functions
  have e4 : (fun k => k0_pay4 (F := Ideal) v0 v1 v2 v6 v9 (ix2 p k))
      = newc (fun k => v0 (ix2 p k)) (fun k => v1 (ix2 p k)) (fun k => v2 (ix2 p k))
          (fun k j => v6 (ix2 k j)) (fun j => v9 (ix2 0 j)) := funext fun k => pay4_apply v0 v1 v2 v6 v9 p k
  have e5 : (fun k => k0_pay5 (F := Ideal) v0 v1 v3 v6 v9 (ix2 p k))
      = newC (fun k => v0 (ix2 p k)) (fun k => v1 (ix2 p k)) (fun k => v3 (ix2 p k))
          (fun k j => v6 (ix2 k j)) (fun j => v9 (ix2 0 j)) := funext fun k => pay5_apply v0 v1 v3 v6 v9 p k
  unfold k0_pay6 newh
  dsimp only
  rw [mulf_apply, logistic_apply, tanh_apply, gate_slice 1024 (by norm_num), addf_apply, shapeCast_self,
    shapeCast_self, broadcastTo_1b_ab_apply]
  simp only [matmul]
  rw [PlainDot.matmul_zero_apply ⟨rfl, rfl, rfl, rfl, rfl, rfl⟩]
  congr 3
  refine Finset.sum_congr rfl fun k _ => ?_
  rw [truncf_apply, cat_apply, e4, e5]

end Cert.KernelIdeal.Pay

end
-- ==== Proof.KValue.lean ====
/-
  From blocks to arrays.  The batch is walked in 64 blocks of 512 rows; block `t` of each result array is written
  once, with the body's stored value of the input blocks at `t`.  Row `p` of an input block at `t` is row
  `512 · t + p` of its array, the four resident blocks are their whole arrays, and the stored value at (p, q) is the
  cell's row function of those rows (KPay.lean): so every result array ends as ONE function of the argument arrays,
  entry (r, q) being the cell's row function of row r — `rowH`, `rowc`, `rowC` below.  The resident arrays are what
  the host operations made of the arguments: the joined gate weights and the joined gate biases (kept as joins, never
  opened), the output layer's weights, and its bias as a one-row matrix; a change of float format is the identity on
  the extended reals.
-/
import proofs.«117177_j1967095022176_1_alg».proof.Proof.KIFrame
import proofs.«117177_j1967095022176_1_alg».proof.Proof.KPay
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HandValue

open Cert.KernelIdeal Cert.KernelIdeal.Gen Cert.KernelIdeal.Hand Cert.KernelIdeal.Pay Cert.Cell
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The results as functions of the argument arrays -/

/-- The five gate weight matrices side by side: 1024 × 2560. -/
def wJoin (c : Dev nD) : FVec Ideal S1024x2560 .f32 :=
  concatenate S1024x2560 1 [⟨S1024x512, m ((c : Thread nD τ).loc main_arg4)⟩, ⟨S1024x512, m ((c : Thread nD τ).loc main_arg6)⟩, ⟨S1024x512, m ((c : Thread nD τ).loc main_arg8)⟩, ⟨S1024x512, m ((c : Thread nD τ).loc main_arg10)⟩, ⟨S1024x512, m ((c : Thread nD τ).loc main_arg12)⟩] concatenates_S1024x512_S1024x512_S1024x512_S1024x512_S1024x512_S1024x2560_d1

/-- The five gate biases end to end: 2560. -/
def bJoin (c : Dev nD) : FVec Ideal S2560 .f32 :=
  concatenate S2560 0 [⟨S512, m ((c : Thread nD τ).loc main_arg5)⟩, ⟨S512, m ((c : Thread nD τ).loc main_arg7)⟩, ⟨S512, m ((c : Thread nD τ).loc main_arg9)⟩, ⟨S512, m ((c : Thread nD τ).loc main_arg11)⟩, ⟨S512, m ((c : Thread nD τ).loc main_arg13)⟩] concatenates_S512_S512_S512_S512_S512_S2560_d0

/-- Entry (r, q) of the new hidden state. -/
def rowH (c : Dev nD) (r : Fin 32768) (q : Fin 512) : EReal :=
  newh (fun k => m ((c : Thread nD τ).loc main_arg0) (ix2 r k)) (fun k => m ((c : Thread nD τ).loc main_arg1) (ix2 r k)) (fun k => m ((c : Thread nD τ).loc main_arg2) (ix2 r k)) (fun k => m ((c : Thread nD τ).loc main_arg3) (ix2 r k))
    (fun k j => wJoin m c (ix2 k j)) (fun j => bJoin m c (ix1 j)) (fun k j => m ((c : Thread nD τ).loc main_arg14) (ix2 k j)) (fun j => m ((c : Thread nD τ).loc main_arg15) (ix1 j)) q

/-- Entry (r, q) of the first memory. -/
def rowc (c : Dev nD) (r : Fin 32768) (q : Fin 512) : EReal :=
  newc (fun k => m ((c : Thread nD τ).loc main_arg0) (ix2 r k)) (fun k => m ((c : Thread nD τ).loc main_arg1) (ix2 r k)) (fun k => m ((c : Thread nD τ).loc main_arg2) (ix2 r k))
    (fun k j => wJoin m c (ix2 k j)) (fun j => bJoin m c (ix1 j)) q

/-- Entry (r, q) of the second memory. -/
def rowC (c : Dev nD) (r : Fin 32768) (q : Fin 512) : EReal :=
  newC (fun k => m ((c : Thread nD τ).loc main_arg0) (ix2 r k)) (fun k => m ((c : Thread nD τ).loc main_arg1) (ix2 r k)) (fun k => m ((c : Thread nD τ).loc main_arg3) (ix2 r k))
    (fun k j => wJoin m c (ix2 k j)) (fun j => bJoin m c (ix1 j)) q

def GH (c : Dev nD) : S32768x512.Idx → EReal := fun i => rowH m c (i 0) (i 1)
def Gc (c : Dev nD) : S32768x512.Idx → EReal := fun i => rowc m c (i 0) (i 1)
def GC (c : Dev nD) : S32768x512.Idx → EReal := fun i => rowC m c (i 0) (i 1)

/-! ## Where a block sits in its array -/

theorem hz : (![0, 0] : Fin 2 → Nat) = fun _ => 0 := funext fun a => by fin_cases a <;> rfl

theorem t_lt (t : Fin cfg0.N) : t.val < 64 := lt_of_lt_of_eq t.isLt N_0

/-- Row `p` of block `t` is row `512 · t + p` of the array. -/
def rowAt (t : Fin cfg0.N) (p : Fin 512) : Fin 32768 :=
  ⟨t.val * 512 + p.val, by have := t_lt t; have := p.isLt; omega⟩

/-- The block indices over the walk: a batch window's block index is (t, 0), a resident window's (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- Row `p` of batch window 0's block at `t`. -/
theorem iblk0_row (c : Dev nD) (t : Fin cfg0.N) (p k : Fin 512) :
    (iblk m c 0 t : Vec Ideal S512x512 .f32) (ix2 p k) = m ((c : Thread nD τ).loc main_arg0) (ix2 (rowAt t p) k) := by
  show V m c main_arg0 (((cfg0.win 0).blk t).view.emb (ix2 p k)) = _
  rw [V_main_arg0]
  refine congrArg _ ?_
  have hf := idx_facts t
  funext a; apply Fin.ext
  match a with
  | ⟨0, _⟩ => show win0_0.index t (0 : Fin 2) * 512 + 1 * p.val = t.val * 512 + p.val; omega
  | ⟨1, _⟩ => show win0_0.index t (1 : Fin 2) * 512 + 1 * k.val = k.val; omega
/-- Row `p` of batch window 1's block at `t`. -/
theorem iblk1_row (c : Dev nD) (t : Fin cfg0.N) (p k : Fin 512) :
    (iblk m c 1 t : Vec Ideal S512x512 .f32) (ix2 p k) = m ((c : Thread nD τ).loc main_arg1) (ix2 (rowAt t p) k) := by
  show V m c main_arg1 (((cfg0.win 1).blk t).view.emb (ix2 p k)) = _
  rw [V_main_arg1]
  refine congrArg _ ?_
  have hf := idx_facts t
  funext a; apply Fin.ext
  match a with
  | ⟨0, _⟩ => show win0_1.index t (0 : Fin 2) * 512 + 1 * p.val = t.val * 512 + p.val; omega
  | ⟨1, _⟩ => show win0_1.index t (1 : Fin 2) * 512 + 1 * k.val = k.val; omega
/-- Row `p` of batch window 2's block at `t`. -/
theorem iblk2_row (c : Dev nD) (t : Fin cfg0.N) (p k : Fin 512) :
    (iblk m c 2 t : Vec Ideal S512x512 .f32) (ix2 p k) = m ((c : Thread nD τ).loc main_arg2) (ix2 (rowAt t p) k) := by
  show V m c main_arg2 (((cfg0.win 2).blk t).view.emb (ix2 p k)) = _
  rw [V_main_arg2]
  refine congrArg _ ?_
  have hf := idx_facts t
  funext a; apply Fin.ext
  match a with
  | ⟨0, _⟩ => show win0_2.index t (0 : Fin 2) * 512 + 1 * p.val = t.val * 512 + p.val; omega
  | ⟨1, _⟩ => show win0_2.index t (1 : Fin 2) * 512 + 1 * k.val = k.val; omega
/-- Row `p` of batch window 3's block at `t`. -/
theorem iblk3_row (c : Dev nD) (t : Fin cfg0.N) (p k : Fin 512) :
    (iblk m c 3 t : Vec Ideal S512x512 .f32) (ix2 p k) = m ((c : Thread nD τ).loc main_arg3) (ix2 (rowAt t p) k) := by
  show V m c main_arg3 (((cfg0.win 3).blk t).view.emb (ix2 p k)) = _
  rw [V_main_arg3]
  refine congrArg _ ?_
  have hf := idx_facts t
  funext a; apply Fin.ext
  match a with
  | ⟨0, _⟩ => show win0_3.index t (0 : Fin 2) * 512 + 1 * p.val = t.val * 512 + p.val; omega
  | ⟨1, _⟩ => show win0_3.index t (1 : Fin 2) * 512 + 1 * k.val = k.val; omega

/-- A resident window's block is its whole array. -/
theorem iblk4_at (c : Dev nD) (t : Fin cfg0.N) (k : Fin 1024) (j : Fin 2560) :
    (iblk m c 4 t : Vec Ideal S1024x2560 .bf16) (ix2 k j) = V m c main_v1 (ix2 k j) := by
  show V m c main_v1 (((cfg0.win 4).blk t).view.emb (ix2 k j)) = _
  refine congrArg _ ?_
  have hf := idx_facts t
  funext a; apply Fin.ext
  match a with
  | ⟨0, _⟩ => show win0_4.index t (0 : Fin 2) * 1024 + 1 * k.val = k.val; omega
  | ⟨1, _⟩ => show win0_4.index t (1 : Fin 2) * 2560 + 1 * j.val = j.val; omega
theorem iblk5_at (c : Dev nD) (t : Fin cfg0.N) (j : Fin 2560) :
    (iblk m c 5 t : Vec Ideal S1x2560 .f32) (ix2 0 j) = V m c main_v3 (ix2 0 j) := by
  show V m c main_v3 (((cfg0.win 5).blk t).view.emb (ix2 0 j)) = _
  refine congrArg _ ?_
  have hf := idx_facts t
  funext a; apply Fin.ext
  match a with
  | ⟨0, _⟩ => show win0_5.index t (0 : Fin 2) * 1 + 1 * 0 = 0; omega
  | ⟨1, _⟩ => show win0_5.index t (1 : Fin 2) * 2560 + 1 * j.val = j.val; omega
theorem iblk6_at (c : Dev nD) (t : Fin cfg0.N) (k : Fin 1024) (j : Fin 512) :
    (iblk m c 6 t : Vec Ideal S1024x512 .bf16) (ix2 k j) = V m c main_v4 (ix2 k j) := by
  show V m c main_v4 (((cfg0.win 6).blk t).view.emb (ix2 k j)) = _
  refine congrArg _ ?_
  have hf := idx_facts t
  funext a; apply Fin.ext
  match a with
  | ⟨0, _⟩ => show win0_6.index t (0 : Fin 2) * 1024 + 1 * k.val = k.val; omega
  | ⟨1, _⟩ => show win0_6.index t (1 : Fin 2) * 512 + 1 * j.val = j.val; omega
theorem iblk7_at (c : Dev nD) (t : Fin cfg0.N) (j : Fin 512) :
    (iblk m c 7 t : Vec Ideal S1x512 .f32) (ix2 0 j) = V m c main_v5 (ix2 0 j) := by
  show V m c main_v5 (((cfg0.win 7).blk t).view.emb (ix2 0 j)) = _
  refine congrArg _ ?_
  have hf := idx_facts t
  funext a; apply Fin.ext
  match a with
  | ⟨0, _⟩ => show win0_7.index t (0 : Fin 2) * 1 + 1 * 0 = 0; omega
  | ⟨1, _⟩ => show win0_7.index t (1 : Fin 2) * 512 + 1 * j.val = j.val; omega

/-! ## What the host operations left in the resident arrays -/

theorem V_v1 (c : Dev nD) : (V m c main_v1 : S1024x2560.Idx → EReal) = truncf .bf16 (wJoin m c) bitsLt_bf16_f32 := by
  dsimp only [V, hostOps0]; after_results; rfl
theorem V_v3 (c : Dev nD) : (V m c main_v3 : S1x2560.Idx → EReal) = shapeCast S1x2560 (bJoin m c) shapeCasts_S2560_S1x2560 := by
  dsimp only [V, hostOps0]; after_results; rfl
theorem V_v4 (c : Dev nD) : (V m c main_v4 : S1024x512.Idx → EReal) = truncf (F := Ideal) .bf16 (m ((c : Thread nD τ).loc main_arg14) : FVec Ideal S1024x512 .f32) bitsLt_bf16_f32 := by
  dsimp only [V, hostOps0]; after_results
theorem V_v5 (c : Dev nD) : (V m c main_v5 : S1x512.Idx → EReal) = shapeCast S1x512 (m ((c : Thread nD τ).loc main_arg15)) shapeCasts_S512_S1x512 := by
  dsimp only [V, hostOps0]; after_results; rfl

/-- The resident arrays at an entry: a change of float format is the identity on the extended reals, and the one-row
    matrix made of a vector reads the vector. -/
theorem w_at (c : Dev nD) (k : Fin 1024) (j : Fin 2560) : V m c main_v1 (ix2 k j) = wJoin m c (ix2 k j) := by
  rw [V_v1]; rfl
theorem b_at (c : Dev nD) (j : Fin 2560) : V m c main_v3 (ix2 0 j) = bJoin m c (ix1 j) := by
  rw [V_v3]; exact shapeCast_a_1a_apply (a := 2560) (bJoin m c) shapeCasts_S2560_S1x2560 0 j
theorem wm_at (c : Dev nD) (k : Fin 1024) (j : Fin 512) : V m c main_v4 (ix2 k j) = m ((c : Thread nD τ).loc main_arg14) (ix2 k j) := by
  rw [V_v4]; rfl
theorem bm_at (c : Dev nD) (j : Fin 512) : V m c main_v5 (ix2 0 j) = m ((c : Thread nD τ).loc main_arg15) (ix1 j) := by
  rw [V_v5]; exact shapeCast_a_1a_apply (a := 512) (m ((c : Thread nD τ).loc main_arg15)) shapeCasts_S512_S1x512 0 j

/-! ## What a point writes back -/

/-- Entry (p, q) of result window 8's block at `t` sits at (512 · t + p, q) of its array. -/
theorem emb8 (t : Fin cfg0.N) (p q : Fin 512) :
    ((cfg0.win 8).blk t).view.emb (ix2 p q) = ix2 (rowAt t p) q := by
  have hf := idx_facts t
  funext a; apply Fin.ext
  match a with
  | ⟨0, _⟩ => show win0_8.index t (0 : Fin 2) * 512 + 1 * p.val = t.val * 512 + p.val; omega
  | ⟨1, _⟩ => show win0_8.index t (1 : Fin 2) * 512 + 1 * q.val = q.val; omega

/-- Point `t` writes back block `t` of `GH`. -/
theorem flushedH_eq (c : Dev nD) (t : Fin cfg0.N) :
    (dats m 0 c).flushed 8 t = ((cfg0.win 8).blk t).view.read (Elt Ideal) (GH m c) := by
  show (cfg0.win 8).cut (grid0.coords t) ((dats m 0 c).after 8 t) = _
  rw [after8]
  unfold outH
  rw [View.canon_unit_zero hz]
  simp only [View.ld_unit_zero (S := S512x512) hz, View.ld_unit_zero (S := S1024x2560) hz, View.ld_unit_zero (S := S1x2560) hz, View.ld_unit_zero (S := S1024x512) hz, View.ld_unit_zero (S := S1x512) hz]
  funext j
  obtain ⟨p, q, rfl⟩ : ∃ (p q : Fin 512), j = ix2 p q := ⟨j 0, j 1, eq_ix2 (n0 := 512) (n1 := 512) j⟩
  show k0_pay6 (F := Ideal) (iblk m c 0 t) (iblk m c 1 t) (iblk m c 2 t) (iblk m c 3 t) (iblk m c 4 t) (iblk m c 5 t) (iblk m c 6 t) (iblk m c 7 t) (ix2 p q) = GH m c (((cfg0.win 8).blk t).view.emb (ix2 p q))
  rw [emb8 t p q]
  show _ = rowH m c (rowAt t p) q
  refine (pay6_apply _ _ _ _ _ _ _ _ p q).trans ?_
  unfold rowH
  simp only [iblk0_row m c t p, iblk1_row m c t p, iblk2_row m c t p, iblk3_row m c t p, iblk4_at m c t, iblk5_at m c t, iblk6_at m c t, iblk7_at m c t, wm_at m c, bm_at m c, w_at m c, b_at m c]

/-- Entry (p, q) of result window 9's block at `t` sits at (512 · t + p, q) of its array. -/
theorem emb9 (t : Fin cfg0.N) (p q : Fin 512) :
    ((cfg0.win 9).blk t).view.emb (ix2 p q) = ix2 (rowAt t p) q := by
  have hf := idx_facts t
  funext a; apply Fin.ext
  match a with
  | ⟨0, _⟩ => show win0_9.index t (0 : Fin 2) * 512 + 1 * p.val = t.val * 512 + p.val; omega
  | ⟨1, _⟩ => show win0_9.index t (1 : Fin 2) * 512 + 1 * q.val = q.val; omega

/-- Point `t` writes back block `t` of `Gc`. -/
theorem flushedc_eq (c : Dev nD) (t : Fin cfg0.N) :
    (dats m 0 c).flushed 9 t = ((cfg0.win 9).blk t).view.read (Elt Ideal) (Gc m c) := by
  show (cfg0.win 9).cut (grid0.coords t) ((dats m 0 c).after 9 t) = _
  rw [after9]
  unfold outc
  rw [View.canon_unit_zero hz]
  simp only [View.ld_unit_zero (S := S512x512) hz, View.ld_unit_zero (S := S1024x2560) hz, View.ld_unit_zero (S := S1x2560) hz, View.ld_unit_zero (S := S1024x512) hz, View.ld_unit_zero (S := S1x512) hz]
  funext j
  obtain ⟨p, q, rfl⟩ : ∃ (p q : Fin 512), j = ix2 p q := ⟨j 0, j 1, eq_ix2 (n0 := 512) (n1 := 512) j⟩
  show k0_pay4 (F := Ideal) (iblk m c 0 t) (iblk m c 1 t) (iblk m c 2 t) (iblk m c 4 t) (iblk m c 5 t) (ix2 p q) = Gc m c (((cfg0.win 9).blk t).view.emb (ix2 p q))
  rw [emb9 t p q]
  show _ = rowc m c (rowAt t p) q
  refine (pay4_apply _ _ _ _ _ p q).trans ?_
  unfold rowc
  simp only [iblk0_row m c t p, iblk1_row m c t p, iblk2_row m c t p, iblk4_at m c t, iblk5_at m c t, w_at m c, b_at m c]

/-- Entry (p, q) of result window 10's block at `t` sits at (512 · t + p, q) of its array. -/
theorem emb10 (t : Fin cfg0.N) (p q : Fin 512) :
    ((cfg0.win 10).blk t).view.emb (ix2 p q) = ix2 (rowAt t p) q := by
  have hf := idx_facts t
  funext a; apply Fin.ext
  match a with
  | ⟨0, _⟩ => show win0_10.index t (0 : Fin 2) * 512 + 1 * p.val = t.val * 512 + p.val; omega
  | ⟨1, _⟩ => show win0_10.index t (1 : Fin 2) * 512 + 1 * q.val = q.val; omega

/-- Point `t` writes back block `t` of `GC`. -/
theorem flushedC_eq (c : Dev nD) (t : Fin cfg0.N) :
    (dats m 0 c).flushed 10 t = ((cfg0.win 10).blk t).view.read (Elt Ideal) (GC m c) := by
  show (cfg0.win 10).cut (grid0.coords t) ((dats m 0 c).after 10 t) = _
  rw [after10]
  unfold outC
  rw [View.canon_unit_zero hz]
  simp only [View.ld_unit_zero (S := S512x512) hz, View.ld_unit_zero (S := S1024x2560) hz, View.ld_unit_zero (S := S1x2560) hz, View.ld_unit_zero (S := S1024x512) hz, View.ld_unit_zero (S := S1x512) hz]
  funext j
  obtain ⟨p, q, rfl⟩ : ∃ (p q : Fin 512), j = ix2 p q := ⟨j 0, j 1, eq_ix2 (n0 := 512) (n1 := 512) j⟩
  show k0_pay5 (F := Ideal) (iblk m c 0 t) (iblk m c 1 t) (iblk m c 3 t) (iblk m c 4 t) (iblk m c 5 t) (ix2 p q) = GC m c (((cfg0.win 10).blk t).view.emb (ix2 p q))
  rw [emb10 t p q]
  show _ = rowC m c (rowAt t p) q
  refine (pay5_apply _ _ _ _ _ p q).trans ?_
  unfold rowC
  simp only [iblk0_row m c t p, iblk1_row m c t p, iblk3_row m c t p, iblk4_at m c t, iblk5_at m c t, w_at m c, b_at m c]

/-! ## The blocks tile the arrays -/

theorem cover8 (i : S32768x512.Idx) : ∃ t : Fin cfg0.N, (cfg0.win 8).flush t = true ∧ i ∈ ((cfg0.win 8).blk t).view.set := by
  have h0 : (i 0).val < 32768 := (i 0).isLt
  have h1 : (i 1).val < 512 := (i 1).isLt
  let t : Fin cfg0.N := ⟨(i 0).val / 512, by rw [show cfg0.N = 64 from N_0]; omega⟩
  have hf := idx_facts t
  refine ⟨t, flush0_8 t, ?_⟩
  show i ∈ ((View.whole main_v6_0).slice (win0_8.rect t)).set
  rw [View.set_slice_whole, Rect.mem_set_unit]
  intro a
  have ht : t.val = (i 0).val / 512 := rfl
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 512 ≤ (i 1).val ∧ (i 1).val < win0_8.index t (1 : Fin 2) * 512 + 512; omega

theorem cover9 (i : S32768x512.Idx) : ∃ t : Fin cfg0.N, (cfg0.win 9).flush t = true ∧ i ∈ ((cfg0.win 9).blk t).view.set := by
  have h0 : (i 0).val < 32768 := (i 0).isLt
  have h1 : (i 1).val < 512 := (i 1).isLt
  let t : Fin cfg0.N := ⟨(i 0).val / 512, by rw [show cfg0.N = 64 from N_0]; omega⟩
  have hf := idx_facts t
  refine ⟨t, flush0_9 t, ?_⟩
  show i ∈ ((View.whole main_v6_1).slice (win0_9.rect t)).set
  rw [View.set_slice_whole, Rect.mem_set_unit]
  intro a
  have ht : t.val = (i 0).val / 512 := rfl
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 512 ≤ (i 1).val ∧ (i 1).val < win0_9.index t (1 : Fin 2) * 512 + 512; omega

theorem cover10 (i : S32768x512.Idx) : ∃ t : Fin cfg0.N, (cfg0.win 10).flush t = true ∧ i ∈ ((cfg0.win 10).blk t).view.set := by
  have h0 : (i 0).val < 32768 := (i 0).isLt
  have h1 : (i 1).val < 512 := (i 1).isLt
  let t : Fin cfg0.N := ⟨(i 0).val / 512, by rw [show cfg0.N = 64 from N_0]; omega⟩
  have hf := idx_facts t
  refine ⟨t, flush0_10 t, ?_⟩
  show i ∈ ((View.whole main_v6_2).slice (win0_10.rect t)).set
  rw [View.set_slice_whole, Rect.mem_set_unit]
  intro a
  have ht : t.val = (i 0).val / 512 := rfl
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 512 ≤ (i 1).val ∧ (i 1).val < win0_10.index t (1 : Fin 2) * 512 + 512; omega

/-! ## The arrays after the run -/

theorem finalH (c : Dev nD) : (dats m 0 c).arrAt 8 cfg0.N = GH m c :=
  (dats m 0 c).arrAt_eq_of_cover 8 (GH m c) (fun t _ => flushedH_eq m c t) cover8
theorem finalc (c : Dev nD) : (dats m 0 c).arrAt 9 cfg0.N = Gc m c :=
  (dats m 0 c).arrAt_eq_of_cover 9 (Gc m c) (fun t _ => flushedc_eq m c t) cover9
theorem finalC (c : Dev nD) : (dats m 0 c).arrAt 10 cfg0.N = GC m c :=
  (dats m 0 c).arrAt_eq_of_cover 10 (GC m c) (fun t _ => flushedC_eq m c t) cover10

/-- Every weakly fair execution of the idealized program ends with the three result arrays at `GH`, `Gc`, `GC` of
    the argument arrays, and the arguments as launched. -/
theorem run : θ_run defs (onTc (τ := τ) (main (F := Ideal))) ⟨m, fun _ => 0, ρ⟩ fun r => ∀ c : Dev nD,
      r.2.mem ((c.tc : Thread nD τ).loc main_v6_0) = GH m c
      ∧ r.2.mem ((c.tc : Thread nD τ).loc main_v6_1) = Gc m c
      ∧ r.2.mem ((c.tc : Thread nD τ).loc main_v6_2) = GC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨((h c).1 8).trans (finalH m c), ((h c).1 9).trans (finalc m c), ((h c).1 10).trans (finalC m c),
      kept_of_post m (dats m) (A_eq m) r h c⟩)
    (run_main m ρ)

end Cert.KernelIdeal.HandValue

end
-- ==== Proof.RefCell.lean ====
/-
  The reference's three results, read at an entry (r, q) of the 32768 × 512 arrays: each is the cell's row function
  (Spec.lean) of row r of the four batch inputs, of the joined weight matrix and the joined bias (kept as the
  reference's own joins, never opened), and of the output layer's matrix and bias.  The reference spells the
  sigmoid as 1 / (1 + exp (-z)), which on the extended reals is the logistic function itself.
-/
import proofs.«117177_j1967095022176_1_alg».proof.Proof.Gen.ReferenceIdeal.Read
import proofs.«117177_j1967095022176_1_alg».proof.Proof.Spec
import proofs.«117177_j1967095022176_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefCell

open Idealize.ShloMosaic Idealize.ShloMosaic.ValueIdx Cert.ReferenceIdeal Cert.ReferenceIdeal.Gen Cert.ReferenceIdeal.Read Cert.Cell

/-- The word 0x3F800000 is the number one. -/
private theorem ofBits_one : Ideal.ofBits .f32 0x3F800000#32 = 1 := by
  simp [Ideal.ofBits, Ideal.ieee, -EReal.coe_mul]; norm_num

/-- The reference's spelling of the sigmoid, 1 / (1 + exp (-z)) with both ones the word 0x3F800000, is the logistic
    function. -/
private theorem sigmoid_eq (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z := by
  rw [Ideal.ofBits_def, ofBits_one]
  rfl

section
variable (x0 x1 x2 x3 : (⟨S32768x512, .f32⟩ : BufTy).Contents (Elt Ideal))
  (x4 x6 x8 x10 x12 x14 : (⟨S1024x512, .f32⟩ : BufTy).Contents (Elt Ideal))
  (x5 x7 x9 x11 x13 x15 : (⟨S512, .f32⟩ : BufTy).Contents (Elt Ideal))

/-- The joined weight matrix, entry by entry (the join itself stays closed). -/
abbrev wAll : Fin 1024 → Fin 2560 → EReal := fun k j => val_main_v1 (F := Ideal) x4 x6 x8 x10 x12 (ix2 k j)
/-- The joined bias, entry by entry. -/
abbrev bAll : Fin 2560 → EReal := fun j => val_main_v2 (F := Ideal) x5 x7 x9 x11 x13 (ix1 j)

/-- Two arrays of 512 columns joined along the columns: row r of the join is the two rows laid end to end. -/
private theorem join_apply (a b : (⟨S32768x512, .f32⟩ : BufTy).Contents (Elt Ideal)) (r : Fin 32768) (k : Fin 1024) :
    concatenate S32768x1024 1 [⟨S32768x512, a⟩, ⟨S32768x512, b⟩] concatenates_S32768x512_S32768x512_S32768x1024_d1 (ix2 r k)
      = catRow (fun k => a (ix2 r k)) (fun k => b (ix2 r k)) k := by
  unfold catRow
  by_cases hk : k.val < 512
  · rw [dif_pos hk]
    exact concatenate_pair_apply_left 1 a b _ (ix2 r k) rfl (ix2 r ⟨k.val, hk⟩)
      (fun c => match c with | ⟨0, _⟩ => rfl | ⟨1, _⟩ => rfl)
  · rw [dif_neg hk]
    exact concatenate_pair_apply_right 1 a b _ (ix2 r k) rfl rfl (ix2 r ⟨k.val - 512, by have := k.isLt; omega⟩)
      (fun c hc => match c, hc with | ⟨0, _⟩, _ => rfl | ⟨1, _⟩, hc => absurd rfl hc)
      (by show k.val - 512 + 512 = k.val; omega)

/-- The pre-activations: the product with the joined weights plus the joined bias, at row r and column j. -/
theorem v6_apply (r : Fin 32768) (j : Fin 2560) :
    val_main_v6 (F := Ideal) x0 x1 x4 x5 x6 x7 x8 x9 x10 x11 x12 x13 (ix2 r j)
      = gate (fun k => x0 (ix2 r k)) (fun k => x1 (ix2 r k)) (wAll x4 x6 x8 x10 x12) (bAll x5 x7 x9 x11 x13) j := by
  have eb : idx_main_v4 (idx_main_v5 (ix2 r j)) = ix1 j := funext fun a => Fin.ext (by match a with | ⟨0, _⟩ => rfl)
  rw [val_main_v6_apply, val_main_v3_apply, val_main_v5_apply, val_main_v4_apply, eb, Ideal.addf_def]
  unfold gate
  congr 1
  refine Finset.sum_congr rfl fun k _ => ?_
  have el : lidx_main_v3 (ix2 r j) k = ix2 r k := funext fun a => Fin.ext (by match a with | ⟨0, _⟩ => rfl | ⟨1, _⟩ => rfl)
  have er : ridx_main_v3 (ix2 r j) k = ix2 k j := funext fun a => Fin.ext (by match a with | ⟨0, _⟩ => rfl | ⟨1, _⟩ => rfl)
  rw [el, er]
  unfold val_main_v0
  rw [join_apply]

/-- The five stretches of 512 columns of the pre-activations. -/
theorem v7_apply (r : Fin 32768) (q : Fin 512) :
    val_main_v7 (F := Ideal) x0 x1 x4 x5 x6 x7 x8 x9 x10 x11 x12 x13 (ix2 r q)
      = gate (fun k => x0 (ix2 r k)) (fun k => x1 (ix2 r k)) (wAll x4 x6 x8 x10 x12) (bAll x5 x7 x9 x11 x13)
          (col 0 (by norm_num) q) := by
  have e : idx_main_v7 (ix2 r q) = ix2 r (col 0 (by norm_num) q) :=
    funext fun a => Fin.ext (by match a with | ⟨0, _⟩ => rfl | ⟨1, _⟩ => exact (Nat.zero_add _).symm)
  rw [val_main_v7_apply, e, v6_apply]

theorem v8_apply (r : Fin 32768) (q : Fin 512) :
    val_main_v8 (F := Ideal) x0 x1 x4 x5 x6 x7 x8 x9 x10 x11 x12 x13 (ix2 r q)
      = gate (fun k => x0 (ix2 r k)) (fun k => x1 (ix2 r k)) (wAll x4 x6 x8 x10 x12) (bAll x5 x7 x9 x11 x13)
          (col 512 (by norm_num) q) := by
  have e : idx_main_v8 (ix2 r q) = ix2 r (col 512 (by norm_num) q) :=
    funext fun a => Fin.ext (by match a with | ⟨0, _⟩ => rfl | ⟨1, _⟩ => rfl)
  rw [val_main_v8_apply, e, v6_apply]

theorem v9_apply (r : Fin 32768) (q : Fin 512) :
    val_main_v9 (F := Ideal) x0 x1 x4 x5 x6 x7 x8 x9 x10 x11 x12 x13 (ix2 r q)
      = gate (fun k => x0 (ix2 r k)) (fun k => x1 (ix2 r k)) (wAll x4 x6 x8 x10 x12) (bAll x5 x7 x9 x11 x13)
          (col 1024 (by norm_num) q) := by
  have e : idx_main_v9 (ix2 r q) = ix2 r (col 1024 (by norm_num) q) :=
    funext fun a => Fin.ext (by match a with | ⟨0, _⟩ => rfl | ⟨1, _⟩ => rfl)
  rw [val_main_v9_apply, e, v6_apply]

theorem v10_apply (r : Fin 32768) (q : Fin 512) :
    val_main_v10 (F := Ideal) x0 x1 x4 x5 x6 x7 x8 x9 x10 x11 x12 x13 (ix2 r q)
      = gate (fun k => x0 (ix2 r k)) (fun k => x1 (ix2 r k)) (wAll x4 x6 x8 x10 x12) (bAll x5 x7 x9 x11 x13)
          (col 1536 (by norm_num) q) := by
  have e : idx_main_v10 (ix2 r q) = ix2 r (col 1536 (by norm_num) q) :=
    funext fun a => Fin.ext (by match a with | ⟨0, _⟩ => rfl | ⟨1, _⟩ => rfl)
  rw [val_main_v10_apply, e, v6_apply]

theorem v11_apply (r : Fin 32768) (q : Fin 512) :
    val_main_v11 (F := Ideal) x0 x1 x4 x5 x6 x7 x8 x9 x10 x11 x12 x13 (ix2 r q)
      = gate (fun k => x0 (ix2 r k)) (fun k => x1 (ix2 r k)) (wAll x4 x6 x8 x10 x12) (bAll x5 x7 x9 x11 x13)
          (col 2048 (by norm_num) q) := by
  have e : idx_main_v11 (ix2 r q) = ix2 r (col 2048 (by norm_num) q) :=
    funext fun a => Fin.ext (by match a with | ⟨0, _⟩ => rfl | ⟨1, _⟩ => rfl)
  rw [val_main_v11_apply, e, v6_apply]

/-- The three gates: the logistic function of the first three stretches. -/
theorem v17_apply (r : Fin 32768) (q : Fin 512) :
    val_main_v17 (F := Ideal) x0 x1 x4 x5 x6 x7 x8 x9 x10 x11 x12 x13 (ix2 r q)
      = Ideal.logistic (gate (fun k => x0 (ix2 r k)) (fun k => x1 (ix2 r k)) (wAll x4 x6 x8 x10 x12)
          (bAll x5 x7 x9 x11 x13) (col 0 (by norm_num) q)) := by
  rw [val_main_v17_apply, val_main_v16_apply, val_main_cst_0_apply, val_main_v15_apply, val_main_v14_apply,
    val_main_cst_apply, val_main_v13_apply, val_main_v12_apply, v7_apply, sigmoid_eq]

theorem v23_apply (r : Fin 32768) (q : Fin 512) :
    val_main_v23 (F := Ideal) x0 x1 x4 x5 x6 x7 x8 x9 x10 x11 x12 x13 (ix2 r q)
      = Ideal.logistic (gate (fun k => x0 (ix2 r k)) (fun k => x1 (ix2 r k)) (wAll x4 x6 x8 x10 x12)
          (bAll x5 x7 x9 x11 x13) (col 512 (by norm_num) q)) := by
  rw [val_main_v23_apply, val_main_v22_apply, val_main_cst_2_apply, val_main_v21_apply, val_main_v20_apply,
    val_main_cst_1_apply, val_main_v19_apply, val_main_v18_apply, v8_apply, sigmoid_eq]

theorem v29_apply (r : Fin 32768) (q : Fin 512) :
    val_main_v29 (F := Ideal) x0 x1 x4 x5 x6 x7 x8 x9 x10 x11 x12 x13 (ix2 r q)
      = Ideal.logistic (gate (fun k => x0 (ix2 r k)) (fun k => x1 (ix2 r k)) (wAll x4 x6 x8 x10 x12)
          (bAll x5 x7 x9 x11 x13) (col 1024 (by norm_num) q)) := by
  rw [val_main_v29_apply, val_main_v28_apply, val_main_cst_4_apply, val_main_v27_apply, val_main_v26_apply,
    val_main_cst_3_apply, val_main_v25_apply, val_main_v24_apply, v9_apply, sigmoid_eq]

/-- The first memory's result (the reference's second result) at (r, q). -/
theorem v34_apply (r : Fin 32768) (q : Fin 512) :
    val_main_v34 (F := Ideal) x0 x1 x2 x4 x5 x6 x7 x8 x9 x10 x11 x12 x13 (ix2 r q)
      = newc (fun k => x0 (ix2 r k)) (fun k => x1 (ix2 r k)) (fun k => x2 (ix2 r k))
          (wAll x4 x6 x8 x10 x12) (bAll x5 x7 x9 x11 x13) q := by
  rw [val_main_v34_apply, val_main_v32_apply, val_main_v33_apply, val_main_v30_apply, v23_apply, v17_apply, v10_apply]
  rfl

/-- The second memory's result (the reference's third result) at (r, q). -/
theorem v37_apply (r : Fin 32768) (q : Fin 512) :
    val_main_v37 (F := Ideal) x0 x1 x3 x4 x5 x6 x7 x8 x9 x10 x11 x12 x13 (ix2 r q)
      = newC (fun k => x0 (ix2 r k)) (fun k => x1 (ix2 r k)) (fun k => x3 (ix2 r k))
          (wAll x4 x6 x8 x10 x12) (bAll x5 x7 x9 x11 x13) q := by
  rw [val_main_v37_apply, val_main_v35_apply, val_main_v36_apply, val_main_v31_apply, v23_apply, v17_apply, v11_apply]
  rfl

/-- The hidden state's result (the reference's first result) at (r, q). -/
theorem v44_apply (r : Fin 32768) (q : Fin 512) :
    val_main_v44 (F := Ideal) x0 x1 x2 x3 x4 x5 x6 x7 x8 x9 x10 x11 x12 x13 x14 x15 (ix2 r q)
      = newh (fun k => x0 (ix2 r k)) (fun k => x1 (ix2 r k)) (fun k => x2 (ix2 r k)) (fun k => x3 (ix2 r k))
          (wAll x4 x6 x8 x10 x12) (bAll x5 x7 x9 x11 x13) (fun k j => x14 (ix2 k j)) (fun j => x15 (ix1 j)) q := by
  have eb : idx_main_v40 (idx_main_v41 (ix2 r q)) = ix1 q := funext fun a => Fin.ext (by match a with | ⟨0, _⟩ => rfl)
  rw [val_main_v44_apply, val_main_v43_apply, val_main_v42_apply, val_main_v39_apply, val_main_v41_apply,
    val_main_v40_apply, eb, v29_apply]
  unfold newh
  simp only [Ideal.mulf_def, Ideal.addf_def, Ideal.hostUnary_tanh_def]
  congr 3
  refine Finset.sum_congr rfl fun k _ => ?_
  have el : lidx_main_v39 (ix2 r q) k = ix2 r k := funext fun a => Fin.ext (by match a with | ⟨0, _⟩ => rfl | ⟨1, _⟩ => rfl)
  have er : ridx_main_v39 (ix2 r q) k = ix2 k q := funext fun a => Fin.ext (by match a with | ⟨0, _⟩ => rfl | ⟨1, _⟩ => rfl)
  rw [el, er]
  unfold val_main_v38
  rw [join_apply]
  simp only [v34_apply, v37_apply]

end

end Cert.ReferenceIdeal.RefCell

end
-- ==== Proof.lean ====
/-
  A fused recurrent cell with two memories, over a batch of 32768 rows of width 512.  From the row `xh = x ++ h`
  (length 1024) the cell forms five gate pre-activations `z = xh · [W_i | W_f | W_o | W_g1 | W_g2] + [b_i | … | b_g2]`,
  the new memories `c' = σ(z_f) · c + σ(z_i) · tanh z_g1` and `C' = σ(z_f) · C + σ(z_i) · tanh z_g2`, and the new hidden
  state `h' = σ(z_o) · tanh ((c' ++ C') · W_mlp + b_mlp)`.

  The kernel walks the batch in 64 blocks of 512 rows, with the joined weights resident and every matrix operand
  narrowed to bf16 before the product; the reference takes the batch whole, in f32, and spells the sigmoid as
  `1 / (1 + exp (-z))`.  On the extended reals a change of float format is the identity, a matrix product into a zero
  accumulator and the host's product are the same sum over the contracted axis, and `1 / (1 + exp (-z))` is the logistic
  function.  Every result row depends on the same row of the four batch inputs only (Spec.lean), so block `t` of the
  kernel's results is rows `512 t … 512 t + 511` of the reference's: KPay.lean reads the kernel's stored blocks entry by
  entry, KValue.lean carries the blocks to whole arrays, RefCell.lean reads the reference's results entry by entry,
  and the two sides meet here on one function of the argument arrays.  No law of arithmetic beyond the definitions
  is used, so the finiteness of the inputs is never opened.  The frames: both kernel programs by the walk's
  block-by-block invariant (KFrame.lean, KIFrame.lean), the reference by its straight-line run.
-/
import proofs.«117177_j1967095022176_1_alg».proof.Defs
import proofs.«117177_j1967095022176_1_alg».proof.Proof.Gen.Kernel
import proofs.«117177_j1967095022176_1_alg».proof.Proof.Gen.KernelIdeal
import proofs.«117177_j1967095022176_1_alg».proof.Proof.Gen.ReferenceIdeal
import proofs.«117177_j1967095022176_1_alg».proof.Proof.Gen.Pre_finite_inputs
import proofs.«117177_j1967095022176_1_alg».proof.Proof.Gen.ReferenceIdeal.Run
import proofs.«117177_j1967095022176_1_alg».proof.Proof.Gen.ReferenceIdeal.Read
import proofs.«117177_j1967095022176_1_alg».proof.Proof.KFrame
import proofs.«117177_j1967095022176_1_alg».proof.Proof.KIFrame
import proofs.«117177_j1967095022176_1_alg».proof.Proof.KValue
import proofs.«117177_j1967095022176_1_alg».proof.Proof.RefCell
import Idealize.ShloMosaic.Adequacy
import Idealize.ShloMosaic.Init

set_option maxRecDepth 16384

noncomputable section

namespace Cert.Proof

open Idealize.ShloMosaic Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing: there is no ledger entry to restate. -/
theorem preserves : Cert.preserves_Kernel_KernelIdeal := trivial

open Cert.KernelIdeal.HandValue in
/-- Both programs end with the three results at the cell's row functions of the argument arrays. -/
theorem algebraic : Cert.algebraic_KernelIdeal_ReferenceIdeal := by
  intro m ρ m' ρ' _ hagree
  refine ⟨fun c => GH m c, fun c => Gc m c, fun c => GC m c, Cert.KernelIdeal.HandValue.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v44_eq]
    funext i
    obtain ⟨r, q, rfl⟩ : ∃ (r : Fin 32768) (q : Fin 512), i = ix2 r q := ⟨i 0, i 1, eq_ix2 (n0 := 32768) (n1 := 512) i⟩
    rw [Cert.ReferenceIdeal.RefCell.v44_apply]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    rfl
  · rw [Cert.ReferenceIdeal.Read.val_main_v34_eq]
    funext i
    obtain ⟨r, q, rfl⟩ : ∃ (r : Fin 32768) (q : Fin 512), i = ix2 r q := ⟨i 0, i 1, eq_ix2 (n0 := 32768) (n1 := 512) i⟩
    rw [Cert.ReferenceIdeal.RefCell.v34_apply]
    rw [(hagree c).1, (hagree c).2.1, (hagree c).2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1]
    rfl
  · rw [Cert.ReferenceIdeal.Read.val_main_v37_eq]
    funext i
    obtain ⟨r, q, rfl⟩ : ∃ (r : Fin 32768) (q : Fin 512), i = ix2 r q := ⟨i 0, i 1, eq_ix2 (n0 := 32768) (n1 := 512) i⟩
    rw [Cert.ReferenceIdeal.RefCell.v37_apply]
    rw [(hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
